-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : FVec F S64x64 .f32) (main_arg2 : FVec F S64 .f32) (main_arg3 : IVec S800000 32) (main_arg4 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 21
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .f32⟩
  | .hbm, ⟨15, _⟩ => ⟨S50000x64, .f32⟩
  | .hbm, ⟨16, _⟩ => ⟨S800000x1, .i32⟩
  | .hbm, ⟨17, _⟩ => ⟨S50000x64, .f32⟩
  | .hbm, ⟨18, _⟩ => ⟨S64x64, .f32⟩
  | .hbm, ⟨19, _⟩ => ⟨S1x64, .f32⟩
  | .hbm, ⟨20, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .f32⟩
  | .hbm, ⟨15, _⟩ => ⟨S50000x64, .f32⟩
  | .hbm, ⟨16, _⟩ => ⟨S800000x1, .i32⟩
  | .hbm, ⟨17, _⟩ => ⟨S50000x64, .f32⟩
  | .hbm, ⟨18, _⟩ => ⟨S_, .f32⟩
  | .hbm, ⟨19, _⟩ => ⟨S50000x64, .f32⟩
  | .hbm, ⟨20, _⟩ => ⟨S50000x64, .f32⟩
  | .hbm, ⟨21, _⟩ => ⟨S50000x64, .f32⟩
  | .hbm, ⟨22, _⟩ => ⟨S64x64, .f32⟩
  | .hbm, ⟨23, _⟩ => ⟨S50000x64, .f32⟩
  | .hbm, ⟨24, _⟩ => ⟨S1x64, .f32⟩
  | .hbm, ⟨25, _⟩ => ⟨S50000x64, .f32⟩
  | .hbm, ⟨26, _⟩ => ⟨S50000x64, .f32⟩
  | .hbm, ⟨27, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.GinLayer.lean ====
/-
  One graph-isomorphism layer with sum aggregation on 50000 nodes of 64 features, as ONE function of its arrays.

  Let x be the node features, agg the array whose row r is the sum of the rows of r's in-neighbours, wt the weight
  matrix already transposed (wt[k, c] = W[c, k]) and b the bias. Node r's combined input is x[r, k] + agg[r, k], and
  output feature c of node r is

      tanh( ∑ₖ (x[r, k] + agg[r, k]) · wt[k, c] + b[c] ),      k over the 64 input features,

  on the extended reals: tanh sends −∞ to −1 and +∞ to 1. The sum is over a fixed finite index set, so how it is tiled
  or in which order it is taken does not matter, and no input has to be finite for what follows.

  The reference scales x by the float 1.0 before adding agg. The word of 1.0 denotes the extended real 1, and
  1 · a = a for every extended real a, the infinities included, so that factor changes nothing.
-/
import Idealize.ShloMosaic.PureOps.Ideal.Laws
import Idealize.ShloMosaic.Lib.ValueIdx

noncomputable section

open scoped BigOperators

namespace Cert.GinLayer

open Idealize.ShloMosaic Idealize.ShloMosaic.ValueIdx

/-- Node features, 50000 nodes by 64 features. -/
abbrev Nodes : Shape := ⟨2, ![50000, 64]⟩
/-- A 64 by 64 weight matrix. -/
abbrev Weights : Shape := ⟨2, ![64, 64]⟩
/-- A bias, one entry per output feature. -/
abbrev Bias : Shape := ⟨1, ![64]⟩

/-- The layer's output: at node `i 0` and output feature `i 1`, tanh of the combined row times column `i 1` of the
    transposed weights, plus the bias at `i 1`. -/
def layer (x agg : Nodes.Idx → EReal) (wt : Weights.Idx → EReal) (b : Bias.Idx → EReal) : Nodes.Idx → EReal :=
  fun i => Ideal.tanh ((∑ k : Fin 64, (x (ix2 (i 0) k) + agg (ix2 (i 0) k)) * wt (ix2 k (i 1))) + b (ix1 (i 1)))

/-- The same at explicit coordinates: node r, output feature c. -/
theorem layer_apply (x agg : Nodes.Idx → EReal) (wt : Weights.Idx → EReal) (b : Bias.Idx → EReal) (r : Fin 50000) (c : Fin 64) :
    layer x agg wt b (ix2 r c)
      = Ideal.tanh ((∑ k : Fin 64, (x (ix2 r k) + agg (ix2 r k)) * wt (ix2 k c)) + b (ix1 c)) := rfl

/-- The word of the float 1.0 denotes the extended real 1. -/
theorem one_word : Ideal.ofBits .f32 0x3F800000#32 = (1 : EReal) := IdealRules.sign_bit.ideal_onePat .f32

/-- Scaling by the float 1.0 changes no extended real. -/
theorem one_scale (a : EReal) : Ideal.ofBits .f32 0x3F800000#32 * a = a := by rw [one_word, one_mul]

end Cert.GinLayer

end
-- ==== Proof.BlockValue.lean ====
/-
  What the kernel body stores for one block of 5000 nodes, read at a row and a feature.

  The body loads a block x of node features, the matching block a of aggregated neighbour features, the whole
  transposed weight matrix wt and the bias as one row. It forms h = x + a, multiplies h by wt on the matrix unit
  into a zero accumulator, adds the bias row to every row and takes tanh. Narrowing h and wt to a shorter float format
  before the product is the identity on the extended reals, a product into a zero accumulator is the plain sum over
  the contracted index, and casting an array to its own shape changes nothing. So the stored value at row p and
  feature q of the block is

      tanh( ∑ₖ (x[p, k] + a[p, k]) · wt[k, q] + bias[0, q] ).
-/
import proofs.«169924_j15616501088825_1_alg».proof.Proof.Gen.KernelIdeal.Skeleton
import proofs.«169924_j15616501088825_1_alg».proof.Proof.GinLayer
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.GinLayer

open Cert.KernelIdeal Cert.KernelIdeal.Gen Idealize.ShloMosaic Idealize.ShloMosaic.ValueIdx

/-! ## The product's operand indices -/

/-- The left operand is read at the output's row … -/
theorem lhs_block_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and at the contracted index as its column. -/
theorem lhs_block_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand is read at the contracted index as its row … -/
theorem rhs_block_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and at the output's column. -/
theorem rhs_block_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The product into a zero accumulator -/

/-- A [5000, 64] block times a [64, 64] matrix into the zero accumulator, at row p and column q: the sum over the 64
    contracted indices of the row's entries times the column's. -/
theorem block_matmul (h : FVec Ideal S5000x64 .bf16) (w : FVec Ideal S64x64 .bf16) (p : Fin 5000) (q : Fin 64) :
    matmul dot_S5000x64_S64x64_S5000x64_1_0_0_1_n_n none h w (constant S5000x64 .f32 0x00000000#32) (ix2 p q)
      = ∑ k : Fin 64, h (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_block_0 _ _
    | ⟨1, _⟩ => exact (lhs_block_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_block_0 _ _).trans hk
    | ⟨1, _⟩ => exact rhs_block_1 _ _)
  rw [el, er]

/-! ## The stored value -/

/-- The body's stored value at row p and feature q of a block, from the four loaded arrays. -/
theorem block_value (x a : Vec Ideal S5000x64 .f32) (wt : Vec Ideal S64x64 .f32) (bias : Vec Ideal S1x64 .f32)
    (p : Fin 5000) (q : Fin 64) :
    k0_pay1 (F := Ideal) x a wt bias (ix2 p q)
      = Ideal.tanh ((∑ k : Fin 64, (x (ix2 p k) + a (ix2 p k)) * wt (ix2 k q)) + bias (ix2 (0 : Fin 1) q)) := by
  unfold k0_pay1
  rw [shapeCast_self, shapeCast_self, shapeCast_self]
  show Ideal.tanh (matmul (F := Ideal) dot_S5000x64_S64x64_S5000x64_1_0_0_1_n_n none (truncf .bf16 (addf x a) _) (truncf .bf16 wt _)
        (constant (F := Ideal) S5000x64 .f32 0x00000000#32) (ix2 p q)
      + broadcastTo S5000x64 bias _ (ix2 p q)) = _
  rw [block_matmul, broadcastTo_1b_ab_apply]
  rfl

end Cert.GinLayer

end
-- ==== Proof.KernelArray.lean ====
/-
  The kernel's result array after its run, as ONE function of the arrays the region finds.

  The grid has ten points. Point t stages rows 5000·t … 5000·t + 4999 of the node features and of the aggregated
  neighbour features, the whole transposed weight matrix and the whole bias row, and writes back the same rows of
  the result. So the value the body stores at row p and feature q of point t's block is the layer's value at node
  5000·t + p and feature q, and since every node r lies in the block of point r / 5000, the ten blocks tile the
  result array: after the run it holds the layer's value everywhere.
-/
import proofs.«169924_j15616501088825_1_alg».proof.Proof.Gen.KernelIdeal.Value
import proofs.«169924_j15616501088825_1_alg».proof.Proof.BlockValue

noncomputable section

open scoped BigOperators

namespace Cert.GinLayer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds, and the blocks a point stages -/

/-- The node features as the region finds them. -/
abbrev featuresFound (c : Dev nD) : Vec Ideal S50000x64 .f32 := V m c (Pipeline.arrRef spec0 0)
/-- The aggregated neighbour features as the region finds them. -/
abbrev aggFound (c : Dev nD) : Vec Ideal S50000x64 .f32 := V m c (Pipeline.arrRef spec0 1)
/-- The transposed weights as the region finds them. -/
abbrev weightsFound (c : Dev nD) : Vec Ideal S64x64 .f32 := V m c (Pipeline.arrRef spec0 2)
/-- The bias, as one row, as the region finds it. -/
abbrev biasRowFound (c : Dev nD) : Vec Ideal S1x64 .f32 := V m c (Pipeline.arrRef spec0 3)

/-- Point t's block of node features. -/
abbrev featuresBlock (c : Dev nD) (t : Fin cfg0.N) : Vec Ideal S5000x64 .f32 := iblk m c 0 t
/-- Point t's block of aggregated neighbour features. -/
abbrev aggBlock (c : Dev nD) (t : Fin cfg0.N) : Vec Ideal S5000x64 .f32 := iblk m c 1 t
/-- The transposed weights as point t stages them. -/
abbrev weightsBlock (c : Dev nD) (t : Fin cfg0.N) : Vec Ideal S64x64 .f32 := iblk m c 2 t
/-- The bias row as point t stages it. -/
abbrev biasBlock (c : Dev nD) (t : Fin cfg0.N) : Vec Ideal S1x64 .f32 := iblk m c 3 t

/-- The layer over the found arrays: what the result array ends holding. -/
def found (c : Dev nD) : Vec Ideal S50000x64 .f32 :=
  layer (featuresFound m c) (aggFound m c) (weightsFound m c) (fun d => biasRowFound m c (ix2 (0 : Fin 1) (d 0)))

/-! ## Where each window's block lies -/

theorem zero_offsets : (![0, 0] : Fin 2 → Nat) = fun _ => 0 := funext fun a => by fin_cases a <;> rfl

/-- The block indices at point t: the two node-indexed inputs and the output are at block row t, column 0; the weights
    and the bias row are at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! Each window's block at point t, read off ANY array of the window's shape: where a block lies depends on the window and
    the point only, not on what the array holds. -/

/-- Row p of point t's block of the first node-indexed input is row 5000·t + p of its array. -/
theorem read_features (t : Fin cfg0.N) (A : Vec Ideal S50000x64 .f32) (p : Fin 5000) (k : Fin 64) (r : Fin 50000)
    (hr : r.val = t.val * 5000 + p.val) :
    ((cfg0.win 0).blk t).view.read (Elt Ideal) A (ix2 p k : S5000x64.Idx) = A (ix2 r k) := by
  obtain ⟨e0, e1, -⟩ := block_indices t
  have h : ((cfg0.win 0).blk t).view.emb (ix2 p k : S5000x64.Idx) = ix2 r k := by
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  rw [View.read_apply, h]
  rfl

/-- Row p of point t's block of the second node-indexed input is row 5000·t + p of its array. -/
theorem read_agg (t : Fin cfg0.N) (A : Vec Ideal S50000x64 .f32) (p : Fin 5000) (k : Fin 64) (r : Fin 50000)
    (hr : r.val = t.val * 5000 + p.val) :
    ((cfg0.win 1).blk t).view.read (Elt Ideal) A (ix2 p k : S5000x64.Idx) = A (ix2 r k) := by
  obtain ⟨-, -, e0, e1, -⟩ := block_indices t
  have h : ((cfg0.win 1).blk t).view.emb (ix2 p k : S5000x64.Idx) = ix2 r k := by
    funext a; apply Fin.ext
    match a with
    | ⟨0, _⟩ => show win0_1.index t (0 : Fin 2) * 5000 + 1 * p.val = r.val; omega
    | ⟨1, _⟩ => show win0_1.index t (1 : Fin 2) * 64 + 1 * k.val = k.val; omega
  rw [View.read_apply, h]
  rfl

/-- The weight window's block is its whole array at every point. -/
theorem read_weights (t : Fin cfg0.N) (A : Vec Ideal S64x64 .f32) (k q : Fin 64) :
    ((cfg0.win 2).blk t).view.read (Elt Ideal) A (ix2 k q : S64x64.Idx) = A (ix2 k q) := by
  obtain ⟨-, -, -, -, e0, e1, -⟩ := block_indices t
  have h : ((cfg0.win 2).blk t).view.emb (ix2 k q : S64x64.Idx) = ix2 k q := by
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  rw [View.read_apply, h]
  rfl

/-- The bias window's block is its whole row at every point. -/
theorem read_bias (t : Fin cfg0.N) (A : Vec Ideal S1x64 .f32) (q : Fin 64) :
    ((cfg0.win 3).blk t).view.read (Elt Ideal) A (ix2 (0 : Fin 1) q : S1x64.Idx) = A (ix2 (0 : Fin 1) q) := by
  obtain ⟨-, -, -, -, -, -, e0, e1, -⟩ := block_indices t
  have h : ((cfg0.win 3).blk t).view.emb (ix2 (0 : Fin 1) q : S1x64.Idx) = ix2 (0 : Fin 1) q := by
    funext a; apply Fin.ext
    match a with
    | ⟨0, _⟩ => show win0_3.index t (0 : Fin 2) * 1 + 1 * 0 = 0; omega
    | ⟨1, _⟩ => show win0_3.index t (1 : Fin 2) * 64 + 1 * q.val = q.val; omega
  rw [View.read_apply, h]
  rfl

/-- Row p of point t's feature block is node 5000·t + p. -/
theorem features_block (c : Dev nD) (t : Fin cfg0.N) (p : Fin 5000) (k : Fin 64) (r : Fin 50000)
    (hr : r.val = t.val * 5000 + p.val) :
    featuresBlock m c t (ix2 p k) = featuresFound m c (ix2 r k) :=
  read_features t (featuresFound m c) p k r hr

/-- Row p of point t's block of aggregated features is node 5000·t + p. -/
theorem agg_block (c : Dev nD) (t : Fin cfg0.N) (p : Fin 5000) (k : Fin 64) (r : Fin 50000)
    (hr : r.val = t.val * 5000 + p.val) :
    aggBlock m c t (ix2 p k) = aggFound m c (ix2 r k) :=
  read_agg t (aggFound m c) p k r hr

/-- Every point stages the whole transposed weight matrix. -/
theorem weights_block (c : Dev nD) (t : Fin cfg0.N) (k q : Fin 64) :
    weightsBlock m c t (ix2 k q) = weightsFound m c (ix2 k q) :=
  read_weights t (weightsFound m c) k q

/-- Every point stages the whole bias row. -/
theorem bias_block (c : Dev nD) (t : Fin cfg0.N) (q : Fin 64) :
    biasBlock m c t (ix2 (0 : Fin 1) q) = biasRowFound m c (ix2 (0 : Fin 1) q) :=
  read_bias t (biasRowFound m c) q

/-! ## One point's stored value is the layer's value at its node -/

/-- If a block's rows, the weights and the bias row are the arrays' at node r and feature c, the body's stored value at
    the block's (p, q) is the layer's value at (r, c). -/
theorem point_value (X A : Nodes.Idx → EReal) (WT : Weights.Idx → EReal) (B : S1x64.Idx → EReal)
    (x a : Vec Ideal S5000x64 .f32) (wt : Vec Ideal S64x64 .f32) (bias : Vec Ideal S1x64 .f32)
    (p : Fin 5000) (q : Fin 64) (r : Fin 50000) (c : Fin 64)
    (hx : ∀ k : Fin 64, x (ix2 p k) = X (ix2 r k)) (ha : ∀ k : Fin 64, a (ix2 p k) = A (ix2 r k))
    (hw : ∀ k : Fin 64, wt (ix2 k q) = WT (ix2 k c)) (hb : bias (ix2 (0 : Fin 1) q) = B (ix2 (0 : Fin 1) c)) :
    k0_pay1 (F := Ideal) x a wt bias (ix2 p q) = layer X A WT (fun d => B (ix2 (0 : Fin 1) (d 0))) (ix2 r c) := by
  rw [block_value, layer_apply, hb]
  refine congrArg Ideal.tanh (congrArg (· + B (ix2 (0 : Fin 1) c)) (Finset.sum_congr rfl fun k _ => ?_))
  rw [hx, ha, hw]

/-! ## What a point writes back, the cover, and the array after the run -/

/-- WHAT POINT t WRITES BACK, for ANY arrays X, A, WT, B that the point's four staged blocks are blocks of: block t of
    the layer over those arrays. -/
theorem flushed_of (c : Dev nD) (t : Fin cfg0.N) (X A : Vec Ideal S50000x64 .f32) (WT : Vec Ideal S64x64 .f32) (B : Vec Ideal S1x64 .f32)
    (hX : ∀ (p : Fin 5000) (k : Fin 64) (r : Fin 50000), r.val = t.val * 5000 + p.val → featuresBlock m c t (ix2 p k) = X (ix2 r k))
    (hA : ∀ (p : Fin 5000) (k : Fin 64) (r : Fin 50000), r.val = t.val * 5000 + p.val → aggBlock m c t (ix2 p k) = A (ix2 r k))
    (hW : ∀ k q : Fin 64, weightsBlock m c t (ix2 k q) = WT (ix2 k q))
    (hB : ∀ q : Fin 64, biasBlock m c t (ix2 (0 : Fin 1) q) = B (ix2 (0 : Fin 1) q)) :
    (dats m 0 c).flushed 4 t
      = ((cfg0.win 4).blk t).view.read (Elt Ideal) (layer X A WT (fun d => B (ix2 (0 : Fin 1) (d 0)))) := by
  rw [Value.flushed4]
  unfold out0_4
  rw [View.canon_unit_zero zero_offsets]
  simp only [View.ld_unit_zero (S := S5000x64) zero_offsets, View.ld_unit_zero (S := S64x64) zero_offsets,
    View.ld_unit_zero (S := S1x64) zero_offsets]
  obtain ⟨-, -, -, -, -, -, -, -, e0, e1⟩ := block_indices t
  have hN : cfg0.N = 10 := N_0
  have ht : t.val < 10 := hN ▸ t.isLt
  funext j
  have hj0 : (j 0).val < 5000 := (j 0).isLt
  have hj1 : (j 1).val < 64 := (j 1).isLt
  have hjj : (j : S5000x64.Idx) = ix2 (⟨(j 0).val, hj0⟩ : Fin 5000) (⟨(j 1).val, hj1⟩ : Fin 64) :=
    funext fun a => Fin.ext (match a with | ⟨0, _⟩ => rfl | ⟨1, _⟩ => rfl)
  have hemb : ((cfg0.win 4).blk t).view.emb j
      = ix2 (⟨t.val * 5000 + (j 0).val, by omega⟩ : Fin 50000) (⟨(j 1).val, hj1⟩ : Fin 64) := by
    funext a; apply Fin.ext
    match a with
    | ⟨0, _⟩ => show win0_4.index t (0 : Fin 2) * 5000 + 1 * (j 0).val = t.val * 5000 + (j 0).val; omega
    | ⟨1, _⟩ => show win0_4.index t (1 : Fin 2) * 64 + 1 * (j 1).val = (j 1).val; omega
  rw [View.read_apply, hemb]
  show k0_pay1 (F := Ideal) (featuresBlock m c t) (aggBlock m c t) (weightsBlock m c t) (biasBlock m c t) j = _
  refine (congrArg (k0_pay1 (F := Ideal) (featuresBlock m c t) (aggBlock m c t) (weightsBlock m c t) (biasBlock m c t)) hjj).trans ?_
  exact point_value X A WT B
    (featuresBlock m c t) (aggBlock m c t) (weightsBlock m c t) (biasBlock m c t)
    (⟨(j 0).val, hj0⟩ : Fin 5000) (⟨(j 1).val, hj1⟩ : Fin 64) (⟨t.val * 5000 + (j 0).val, by omega⟩ : Fin 50000) (⟨(j 1).val, hj1⟩ : Fin 64)
    (fun k => hX ⟨(j 0).val, hj0⟩ k ⟨t.val * 5000 + (j 0).val, by omega⟩ rfl)
    (fun k => hA ⟨(j 0).val, hj0⟩ k ⟨t.val * 5000 + (j 0).val, by omega⟩ rfl)
    (fun k => hW k ⟨(j 1).val, hj1⟩)
    (hB ⟨(j 1).val, hj1⟩)

/-- WHAT POINT t WRITES BACK is block t of the layer over the found arrays. -/
theorem flushed_eq (c : Dev nD) (t : Fin cfg0.N) :
    (dats m 0 c).flushed 4 t = ((cfg0.win 4).blk t).view.read (Elt Ideal) (found m c) :=
  flushed_of m c t (featuresFound m c) (aggFound m c) (weightsFound m c) (biasRowFound m c)
    (features_block m c t) (agg_block m c t) (weights_block m c t) (bias_block m c t)

/-- An index of the result array is in point t's block iff each coordinate is in the block's range on its axis. -/
theorem mem_block (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v12).slice (win0_4.rect t)).set ↔ _
  rw [View.set_slice_whole, Rect.mem_set_unit]
  exact Iff.rfl

/-- Node r is in the block of point r / 5000: the ten blocks tile the array. -/
theorem covered (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, -, e0, e1⟩ := block_indices t
  refine ⟨t, flush0_4 t, ?_⟩
  rw [mem_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the run is the layer over the found arrays. -/
theorem final (c : Dev nD) : (dats m 0 c).arrAt 4 cfg0.N = found m c :=
  (dats m 0 c).arrAt_eq_of_cover 4 (found m c) (fun t _ => flushed_eq m c t) covered

/-- The kernel's run re-posted: the result array at the layer over the found arrays, the arguments unchanged. -/
theorem kernel_run : θ_run defs (onTc (τ := τ) (main (F := Ideal))) ⟨m, fun _ => 0, ρ⟩ fun r => ∀ c : Dev nD,
      r.2.mem ((c : Thread nD τ).loc main_v12) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.GinLayer

end
-- ==== Proof.ReferenceArray.lean ====
/-
  The reference's result, as the layer over its own arrays.

  The reference forms the aggregated neighbour features agg by the same gather and scatter-add as the kernel's host
  side, scales the node features by the float 1.0, adds agg, multiplies by the transposed weights in one product over
  all 50000 nodes, adds the bias broadcast over the nodes, and takes tanh. Read at node r and feature c this is

      tanh( ∑ₖ (1 · x[r, k] + agg[r, k]) · wt[k, c] + b[c] ),

  and the factor 1 drops out on every extended real. The aggregated features and the transposed weights are kept as
  the terms the reference computes: the kernel's host side computes the same terms, so they are never opened.
-/
import proofs.«169924_j15616501088825_1_alg».proof.Proof.Gen.ReferenceIdeal.Read
import proofs.«169924_j15616501088825_1_alg».proof.Proof.GinLayer

noncomputable section

open scoped BigOperators

namespace Cert.GinLayer.Reference

open Cert.ReferenceIdeal Cert.ReferenceIdeal.Gen Cert.ReferenceIdeal.Read Idealize.ShloMosaic Idealize.ShloMosaic.ValueIdx
open Cert.GinLayer

/-- The reference's result array is the layer over the node features, the aggregated features and transposed weights it
    computes, and the bias. -/
theorem result_eq (x0 : (⟨S50000x64, .f32⟩ : BufTy).Contents (Elt Ideal)) (x1 : (⟨S64x64, .f32⟩ : BufTy).Contents (Elt Ideal))
    (x2 : (⟨S64, .f32⟩ : BufTy).Contents (Elt Ideal)) (x3 x4 : (⟨S800000, .i32⟩ : BufTy).Contents (Elt Ideal)) :
    val_main_v18 (F := Ideal) x0 x1 x2 x3 x4
      = layer x0 (val_main_v9 (F := Ideal) x0 x3 x4) (val_main_v13 (F := Ideal) x1) x2 := by
  funext i
  obtain ⟨r, c, rfl⟩ : ∃ (r : Fin 50000) (c : Fin 64), i = ix2 r c := ⟨i 0, i 1, eq_ix2 i⟩
  have el : ∀ k : Fin 64, lidx_main_v14 (ix2 r c) k = ix2 r k := fun k =>
    funext fun a => Fin.ext (by match a with | ⟨0, _⟩ => rfl | ⟨1, _⟩ => rfl)
  have er : ∀ k : Fin 64, ridx_main_v14 (ix2 r c) k = ix2 k c := fun k =>
    funext fun a => Fin.ext (by match a with | ⟨0, _⟩ => rfl | ⟨1, _⟩ => rfl)
  have eb : idx_main_v15 (idx_main_v16 (ix2 r c)) = ix1 c :=
    funext fun a => Fin.ext (by match a with | ⟨0, _⟩ => rfl)
  rw [val_main_v18_apply, val_main_v17_apply, val_main_v14_apply, val_main_v16_apply, val_main_v15_apply, eb, layer_apply]
  simp only [el, er, val_main_v12_apply, val_main_v11_apply, val_main_v10_apply, val_main_cst_1_apply]
  show Ideal.tanh ((∑ k : Fin 64, (Ideal.ofBits .f32 0x3F800000#32 * x0 (ix2 r k) + val_main_v9 (F := Ideal) x0 x3 x4 (ix2 r k))
      * val_main_v13 (F := Ideal) x1 (ix2 k c)) + x2 (ix1 c)) = _
  simp only [one_scale]

end Cert.GinLayer.Reference

end
-- ==== Proof.HostSide.lean ====
/-
  The arrays the kernel's region finds, as terms of the program's arguments — and that they are the reference's.

  Before the region the kernel's host side wraps negative source indices, gathers the source nodes' rows, scatter-adds
  them into a zero array at the destination indices, transposes the weights and views the bias as one row. The
  reference begins with the very same operations on the same literals, so the aggregated features and the transposed
  weights are one term on both sides, equal as whole arrays. The node features reach the region untouched. The bias row read at (0, q) is the bias at q.
-/
import proofs.«169924_j15616501088825_1_alg».proof.Proof.KernelArray
import proofs.«169924_j15616501088825_1_alg».proof.Proof.ReferenceArray
import Idealize.ShloMosaic.Lib.StableHlo.Run
import Idealize.ShloMosaic.Lib.ValueLayout

noncomputable section

namespace Cert.GinLayer

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The node features reach the region as launched. -/
theorem features_eq (c : Dev nD) : featuresFound m c = m ((c : Thread nD τ).loc main_arg0) := V_main_arg0 m c

/-- The aggregated features the region finds are the reference's, as one array. -/
theorem agg_eq (c : Dev nD) :
    aggFound m c = Cert.ReferenceIdeal.Read.val_main_v9 (F := Ideal) (m ((c : Thread nD τ).loc main_arg0))
      (m ((c : Thread nD τ).loc main_arg3)) (m ((c : Thread nD τ).loc main_arg4)) := by
  show (V m c main_v9 : S50000x64.Idx → EReal) = _
  dsimp only [V, hostOps0]
  after_results
  rfl

/-- The transposed weights the region finds are the reference's, as one array. -/
theorem weights_eq (c : Dev nD) :
    weightsFound m c = Cert.ReferenceIdeal.Read.val_main_v13 (F := Ideal) (m ((c : Thread nD τ).loc main_arg1)) := by
  show (V m c main_v10 : S64x64.Idx → EReal) = _
  dsimp only [V, hostOps0]
  after_results
  rfl

/-- The bias row the region finds is the bias viewed as [1, 64]. -/
theorem bias_row_eq (c : Dev nD) :
    biasRowFound m c = shapeCast S1x64 (m ((c : Thread nD τ).loc main_arg2)) Facts₀.shapeCasts_S64_S1x64 := by
  show (V m c main_v11 : S1x64.Idx → EReal) = _
  dsimp only [V, hostOps0]
  after_results
  rfl

/-- Read at (0, q), the bias row is the bias at q. -/
theorem bias_eq (c : Dev nD) :
    (fun d : S64.Idx => biasRowFound m c (ix2 (0 : Fin 1) (d 0))) = m ((c : Thread nD τ).loc main_arg2) := by
  funext d
  rw [bias_row_eq]
  obtain ⟨q, rfl⟩ : ∃ q : Fin 64, d = ix1 q := ⟨d 0, eq_ix1 d⟩
  exact shapeCast_a_1a_apply _ _ (0 : Fin 1) q

/-- THE RESULT ARRAY of the kernel is the reference's last stage, of the same arguments. -/
theorem found_eq_reference (c : Dev nD) :
    found m c = Cert.ReferenceIdeal.Read.val_main_v18 (F := Ideal) (m ((c : Thread nD τ).loc main_arg0))
      (m ((c : Thread nD τ).loc main_arg1)) (m ((c : Thread nD τ).loc main_arg2))
      (m ((c : Thread nD τ).loc main_arg3)) (m ((c : Thread nD τ).loc main_arg4)) := by
  rw [Reference.result_eq]
  unfold found
  rw [bias_eq m c, features_eq m c, agg_eq m c, weights_eq m c]

end Cert.GinLayer

end
-- ==== Proof.lean ====
/-
  A graph-isomorphism layer with sum aggregation, a linear map and tanh, on 50000 nodes of 64 features and 800000
  edges: the tiled kernel against the whole-array reference, over the extended reals.

  Both programs first build agg, whose row r is the sum of the rows x[src[e]] over the edges e with dst[e] = r, by the
  same gather and scatter-add of the same arguments. The kernel then walks ten blocks of 5000 nodes; for each it adds
  the block of x to the block of agg, multiplies by the transposed weights on the matrix unit, adds the bias and takes
  tanh. The reference scales x by 1.0, adds agg, multiplies all 50000 rows by the transposed weights in one product,
  adds the bias and takes tanh. At node r and output feature c both are

      tanh( ∑ₖ (x[r, k] + agg[r, k]) · W[c, k] + b[c] ),      k over the 64 input features:

  narrowing the product's operands to a shorter float format is the identity on the extended reals, a product into a
  zero accumulator is the plain sum, the ten blocks tile the nodes, and 1 · a = a for every extended real a. No law
  used needs a finite input, so the precondition is never opened.

  The three programs run to the end with their arguments unchanged: for the two kernel programs by the generated frame
  of the one tiled region, for the reference by its generated run. The idealized kernel is the kernel's own text read
  over the extended reals, so there is nothing to preserve.
-/
import proofs.«169924_j15616501088825_1_alg».proof.Defs
import proofs.«169924_j15616501088825_1_alg».proof.Proof.Gen.Kernel
import proofs.«169924_j15616501088825_1_alg».proof.Proof.Gen.Kernel.Skeleton
import proofs.«169924_j15616501088825_1_alg».proof.Proof.Gen.Kernel.Launch
import proofs.«169924_j15616501088825_1_alg».proof.Proof.Gen.Kernel.Points
import proofs.«169924_j15616501088825_1_alg».proof.Proof.Gen.Kernel.Frame
import proofs.«169924_j15616501088825_1_alg».proof.Proof.Gen.KernelIdeal
import proofs.«169924_j15616501088825_1_alg».proof.Proof.Gen.KernelIdeal.Skeleton
import proofs.«169924_j15616501088825_1_alg».proof.Proof.Gen.KernelIdeal.Launch
import proofs.«169924_j15616501088825_1_alg».proof.Proof.Gen.KernelIdeal.Points
import proofs.«169924_j15616501088825_1_alg».proof.Proof.Gen.KernelIdeal.Frame
import proofs.«169924_j15616501088825_1_alg».proof.Proof.Gen.ReferenceIdeal
import proofs.«169924_j15616501088825_1_alg».proof.Proof.Gen.Pre_finite_inputs
import proofs.«169924_j15616501088825_1_alg».proof.Proof.Gen.KernelIdeal.Value
import proofs.«169924_j15616501088825_1_alg».proof.Proof.Gen.ReferenceIdeal.Run
import proofs.«169924_j15616501088825_1_alg».proof.Proof.Gen.ReferenceIdeal.Read
import Idealize.ShloMosaic.Adequacy
import Idealize.ShloMosaic.Init
import proofs.«169924_j15616501088825_1_alg».proof.Proof.HostSide

noncomputable section

namespace Cert.Proof

open Idealize.ShloMosaic Idealize.ShloMosaic.TcCoe Idealize.SL.Sem

/-- The kernel runs to the end and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's are the same array: the layer's value at
    every node and feature. -/
theorem algebraic : Cert.algebraic_KernelIdeal_ReferenceIdeal := by
  intro m ρ m' ρ' _ hagree
  refine ⟨fun c => Cert.GinLayer.found m c, Cert.GinLayer.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v18_eq]
  exact (Cert.GinLayer.found_eq_reference m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
